-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S128x64 : Shape := ⟨2, ![128, 64]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S524288x64 .f32) (main_arg1 : FVec F S128x64 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  main_v8
-- ==== Kernel.lean ====
abbrev S524288x64 : Shape := ⟨2, ![524288, 64]⟩
abbrev S128x64 : Shape := ⟨2, ![128, 64]⟩
abbrev S64x128 : Shape := ⟨2, ![64, 128]⟩
abbrev S4096x64 : Shape := ⟨2, ![4096, 64]⟩
abbrev S4096 : Shape := ⟨1, ![4096]⟩
abbrev S4096x1 : Shape := ⟨2, ![4096, 1]⟩
abbrev S128 : Shape := ⟨1, ![128]⟩
abbrev S1x128 : Shape := ⟨2, ![1, 128]⟩
abbrev S4096x128 : Shape := ⟨2, ![4096, 128]⟩

abbrev nBuf : Space → Nat
  | .hbm => 4
  | .vmem => 5
  | .smem => 0
  | _ => 0

abbrev bufTy : (tb : Table) → Fin (tcTables nBuf tb) → BufTy
  | .hbm, ⟨0, _⟩ => ⟨S524288x64, .f32⟩
  | .hbm, ⟨1, _⟩ => ⟨S128x64, .f32⟩
  | .hbm, ⟨2, _⟩ => ⟨S64x128, .f32⟩
  | .hbm, ⟨3, _⟩ => ⟨S128x64, .f32⟩
  | .local _ .vmem, ⟨0, _⟩ => ⟨S4096x64, .f32⟩
  | .local _ .vmem, ⟨1, _⟩ => ⟨S4096x64, .f32⟩
  | .local _ .vmem, ⟨2, _⟩ => ⟨S64x128, .f32⟩
  | .local _ .vmem, ⟨3, _⟩ => ⟨S128x64, .f32⟩
  | .local _ .vmem, ⟨4, _⟩ => ⟨S128x64, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v33 : BitVec 1 := Scalar.cmpi .eq arg0 c127_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S128x64_S64x128_1_0 : S128x64.Transposes [1, 0] S64x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4096x64_S4096x64_0_0 : ∀ a, (![0, 0] : Fin 2 → Nat) a + S4096x64.size a ≤ S4096x64.size a
  h_S4096x64 : 0 < S4096x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  reduces_S4096x64_S4096 : S4096x64.Reduces [1] S4096
  shapeCasts_S4096_S4096x1 : S4096.ShapeCasts S4096x1
  reduces_S64x128_S128 : S64x128.Reduces [0] S128
  shapeCasts_S128_S1x128 : S128.ShapeCasts S1x128
  bitsLt_bf16_f32 : FTy.bits .bf16 < FTy.bits .f32
  broadcasts_S4096x1_S4096x128 : S4096x1.Broadcasts S4096x128
  broadcasts_S1x128_S4096x128 : S1x128.Broadcasts S4096x128
  dot_S4096x64_S64x128_S4096x128_1_0_0_1_n_n_wf : DotDims.WF S4096x64 S64x128 S4096x128 [1] [0] [0] [1] [] []
  dot_S4096x128_S4096x64_S128x64_0_0_1_1_n_n_wf : DotDims.WF S4096x128 S4096x64 S128x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S4096x64_S128x64_0_0_1_1_n_n : DotDims S4096x128 S4096x64 S128x64 where
  lhsContracting := [0]
  rhsContracting := [0]
  lhsNonContracting := [1]
  rhsNonContracting := [1]
  lhsBatch := []
  rhsBatch := []
  wf := dot_S4096x128_S4096x64_S128x64_0_0_1_1_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x64.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S524288x64 : Shape := ⟨2, ![524288, 64]⟩
abbrev S128x64 : Shape := ⟨2, ![128, 64]⟩
abbrev S_ : Shape := ⟨0, ![]⟩
abbrev S524288 : Shape := ⟨1, ![524288]⟩
abbrev S524288x1 : Shape := ⟨2, ![524288, 1]⟩
abbrev S128 : Shape := ⟨1, ![128]⟩
abbrev S1x128 : Shape := ⟨2, ![1, 128]⟩
abbrev S524288x128 : Shape := ⟨2, ![524288, 128]⟩

abbrev nBuf : Space → Nat
  | .hbm => 24
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S128x64, .f32⟩
  | .hbm, ⟨2, _⟩ => ⟨S524288x64, .f32⟩
  | .hbm, ⟨3, _⟩ => ⟨S_, .f32⟩
  | .hbm, ⟨4, _⟩ => ⟨S524288, .f32⟩
  | .hbm, ⟨5, _⟩ => ⟨S524288x1, .f32⟩
  | .hbm, ⟨6, _⟩ => ⟨S128x64, .f32⟩
  | .hbm, ⟨7, _⟩ => ⟨S_, .f32⟩
  | .hbm, ⟨8, _⟩ => ⟨S128, .f32⟩
  | .hbm, ⟨9, _⟩ => ⟨S1x128, .f32⟩
  | .hbm, ⟨10, _⟩ => ⟨S524288x128, .f32⟩
  | .hbm, ⟨11, _⟩ => ⟨S_, .f32⟩
  | .hbm, ⟨12, _⟩ => ⟨S524288x128, .f32⟩
  | .hbm, ⟨13, _⟩ => ⟨S524288x128, .f32⟩
  | .hbm, ⟨14, _⟩ => ⟨S524288x128, .f32⟩
  | .hbm, ⟨15, _⟩ => ⟨S524288x128, .f32⟩
  | .hbm, ⟨16, _⟩ => ⟨S524288x128, .f32⟩
  | .hbm, ⟨17, _⟩ => ⟨S524288x128, .f32⟩
  | .hbm, ⟨18, _⟩ => ⟨S524288x128, .f32⟩
  | .hbm, ⟨19, _⟩ => ⟨S_, .f32⟩
  | .hbm, ⟨20, _⟩ => ⟨S524288x128, .f32⟩
  | .hbm, ⟨21, _⟩ => ⟨S524288x128, .f32⟩
  | .hbm, ⟨22, _⟩ => ⟨S524288x128, .f32⟩
  | .hbm, ⟨23, _⟩ => ⟨S128x64, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S524288x64_S524288_d1 : S524288x64.ReducesTo [1] S524288
  h_S_ : 0 < S_.numel
  bcast_S524288_S524288x1_0 : S524288.BroadcastsInDim S524288x1 (![0] : Fin 1 → Fin S524288x1.rank)
  reducesTo_S128x64_S128_d1 : S128x64.ReducesTo [1] S128
  bcast_S128_S1x128_1 : S128.BroadcastsInDim S1x128 (![1] : Fin 1 → Fin S1x128.rank)
  bcast_S_S524288x128 : S_.BroadcastsInDim S524288x128 (![] : Fin 0 → Fin S524288x128.rank)
  bcast_S524288x1_S524288x128_0_1 : S524288x1.BroadcastsInDim S524288x128 (![0, 1] : Fin 2 → Fin S524288x128.rank)
  bcast_S1x128_S524288x128_0_1 : S1x128.BroadcastsInDim S524288x128 (![0, 1] : Fin 2 → Fin S524288x128.rank)
  dot_S524288x64_S128x64_S524288x128_1_1_0_0_n_n_wf : DotDims.WF S524288x64 S128x64 S524288x128 [1] [1] [0] [0] [] []
  dot_S524288x128_S524288x64_S128x64_0_0_1_1_n_n_wf : DotDims.WF S524288x128 S524288x64 S128x64 [0] [0] [1] [1] [] []

variable [Facts₀]

def dot_S524288x64_S128x64_S524288x128_1_1_0_0_n_n : DotDims S524288x64 S128x64 S524288x128 where
  lhsContracting := [1]
  rhsContracting := [1]
  lhsNonContracting := [0]
  rhsNonContracting := [0]
  lhsBatch := []
  rhsBatch := []
  wf := dot_S524288x64_S128x64_S524288x128_1_1_0_0_n_n_wf
def dot_S524288x128_S524288x64_S128x64_0_0_1_1_n_n : DotDims S524288x128 S524288x64 S128x64 where
  lhsContracting := [0]
  rhsContracting := [0]
  lhsNonContracting := [1]
  rhsNonContracting := [1]
  lhsBatch := []
  rhsBatch := []
  wf := dot_S524288x128_S524288x64_S128x64_0_0_1_1_n_n_wf

class Facts : Prop extends Facts₀ where

variable [Facts]
-- ==== Proof.Histogram.lean ====
/-
  The Gaussian-weighted histogram as ONE function of the two argument arrays.

  For rows `x k` (k < 524288) and centres `c o` (o < 128) in dimension 64, the squared distance is spelt
  `‖x k‖² - 2·⟨x k, c o⟩ + ‖c o‖²`, the weight is `exp (-(distance) / 2)`, and entry `(o, i)` of the histogram is
  the sum over all rows `k` of `weight k o * x k i`.

  The sum over the 524288 rows is written over `Finset.range` of a function of a natural number (zero past the
  last row), so that it can be cut into 128 consecutive stretches of 4096 rows: the partial sum after `n`
  stretches, its step, and its two ends. Addition of extended reals is commutative and associative, so cutting
  the sum needs no finiteness of the entries.

  Two spellings of the weight's exponent are joined here: `(0 - d) * (1/2)` and `(-d) / 2` are the same
  extended real for every `d`, the infinities included, because a quotient by a nonzero real is the product
  with its reciprocal.
-/
import Idealize.ShloMosaic.Lib.ValueIdx
import Idealize.ShloMosaic.PureOps.Ideal.Laws

noncomputable section

namespace Cert.Hist

open Idealize.ShloMosaic Idealize.ShloMosaic.ValueIdx

/-- The word `0x40000000` denotes the real number 2. -/
theorem two_eq : Ideal.ofBits .f32 0x40000000#32 = ((2 : ℝ) : EReal) := by
  simp [Ideal.ofBits, Ideal.ieee, -EReal.coe_mul]; norm_num

/-- The word `0x3F000000` denotes the real number 1/2. -/
theorem half_eq : Ideal.ofBits .f32 0x3F000000#32 = ((1 / 2 : ℝ) : EReal) := by
  simp [Ideal.ofBits, Ideal.ieee, -EReal.coe_mul]; norm_num

/-- The squared distance between a row and a centre, as the sum of the three terms of its expansion. -/
def sqDist (xr cr : Fin 64 → EReal) : EReal :=
  (∑ j, xr j * xr j) - Ideal.ofBits .f32 0x40000000#32 * (∑ j, xr j * cr j) + ∑ j, cr j * cr j

/-- The Gaussian weight of a row at a centre: the exponential of minus half the squared distance. -/
def weight (xr cr : Fin 64 → EReal) : EReal :=
  Ideal.exp (Ideal.div (-(sqDist xr cr)) (Ideal.ofBits .f32 0x40000000#32))

/-- Subtracting from zero and multiplying by one half is negating and dividing by two, on every extended real. -/
theorem exp_zero_sub_mul_half (d : EReal) :
    Ideal.exp ((0 - d) * Ideal.ofBits .f32 0x3F000000#32)
      = Ideal.exp (Ideal.div (-d) (Ideal.ofBits .f32 0x40000000#32)) := by
  rw [two_eq, half_eq, Ideal.div_coe (by norm_num : (2 : ℝ) ≠ 0), zero_sub]

/-- Row `k`'s contribution to entry `(o, i)`: its weight at centre `o` times its coordinate `i`; zero past the last row. -/
def term (x : (⟨2, ![524288, 64]⟩ : Shape).Idx → EReal) (c : (⟨2, ![128, 64]⟩ : Shape).Idx → EReal)
    (o : Fin 128) (i : Fin 64) (k : ℕ) : EReal :=
  if h : k < 524288 then
    weight (fun j => x (ix2 (⟨k, h⟩ : Fin 524288) j)) (fun j => c (ix2 o j)) * x (ix2 (⟨k, h⟩ : Fin 524288) i)
  else 0

/-- The histogram: entry `(o, i)` is the sum of every row's contribution. -/
def hist (x : (⟨2, ![524288, 64]⟩ : Shape).Idx → EReal) (c : (⟨2, ![128, 64]⟩ : Shape).Idx → EReal) :
    (⟨2, ![128, 64]⟩ : Shape).Idx → EReal :=
  fun y => ∑ k ∈ Finset.range 524288, term x c (y 0) (y 1) k

/-- The histogram's entry `(o, i)` as a sum indexed by the rows themselves. -/
theorem hist_apply (x : (⟨2, ![524288, 64]⟩ : Shape).Idx → EReal) (c : (⟨2, ![128, 64]⟩ : Shape).Idx → EReal)
    (o : Fin 128) (i : Fin 64) :
    hist x c (ix2 o i) = ∑ k : Fin 524288, weight (fun j => x (ix2 k j)) (fun j => c (ix2 o j)) * x (ix2 k i) := by
  show ∑ k ∈ Finset.range 524288, term x c o i k = _
  rw [← Fin.sum_univ_eq_sum_range (fun k => term x c o i k) 524288]
  refine Finset.sum_congr rfl fun k _ => ?_
  unfold term
  rw [dif_pos k.isLt]

/-- The sum of the contributions of the first `n` stretches of 4096 rows. -/
def partialSum (x : (⟨2, ![524288, 64]⟩ : Shape).Idx → EReal) (c : (⟨2, ![128, 64]⟩ : Shape).Idx → EReal)
    (o : Fin 128) (i : Fin 64) (n : ℕ) : EReal :=
  ∑ k ∈ Finset.range (n * 4096), term x c o i k

theorem partialSum_zero (x : (⟨2, ![524288, 64]⟩ : Shape).Idx → EReal) (c : (⟨2, ![128, 64]⟩ : Shape).Idx → EReal)
    (o : Fin 128) (i : Fin 64) : partialSum x c o i 0 = 0 := by
  unfold partialSum
  rw [Nat.zero_mul, Finset.range_zero, Finset.sum_empty]

/-- One more stretch adds the sum of its 4096 rows' contributions. -/
theorem partialSum_succ (x : (⟨2, ![524288, 64]⟩ : Shape).Idx → EReal) (c : (⟨2, ![128, 64]⟩ : Shape).Idx → EReal)
    (o : Fin 128) (i : Fin 64) (n : ℕ) :
    partialSum x c o i (n + 1) = partialSum x c o i n + ∑ a ∈ Finset.range 4096, term x c o i (n * 4096 + a) := by
  unfold partialSum
  rw [Nat.succ_mul, Finset.sum_range_add]

/-- All 128 stretches together are every row. -/
theorem partialSum_all (x : (⟨2, ![524288, 64]⟩ : Shape).Idx → EReal) (c : (⟨2, ![128, 64]⟩ : Shape).Idx → EReal)
    (o : Fin 128) (i : Fin 64) : partialSum x c o i 128 = hist x c (ix2 o i) := rfl

/-- Stretch `t`'s sum, over a block `xb` that holds rows `4096 t … 4096 t + 4095` of `x`, is the sum of those rows'
    weighted coordinates read in the block. -/
theorem stretch_sum (x : (⟨2, ![524288, 64]⟩ : Shape).Idx → EReal) (c : (⟨2, ![128, 64]⟩ : Shape).Idx → EReal)
    (o : Fin 128) (i : Fin 64) (t : ℕ) (ht : t < 128) (xb : (⟨2, ![4096, 64]⟩ : Shape).Idx → EReal)
    (hxb : ∀ (a : Fin 4096) (j : Fin 64),
      xb (ix2 a j) = x (ix2 (⟨t * 4096 + a.val, by have := a.isLt; omega⟩ : Fin 524288) j)) :
    ∑ a : Fin 4096, weight (fun j => xb (ix2 a j)) (fun j => c (ix2 o j)) * xb (ix2 a i)
      = ∑ a ∈ Finset.range 4096, term x c o i (t * 4096 + a) := by
  rw [← Fin.sum_univ_eq_sum_range (fun a => term x c o i (t * 4096 + a)) 4096]
  refine Finset.sum_congr rfl fun a _ => ?_
  have hlt : t * 4096 + a.val < 524288 := by have := a.isLt; omega
  unfold term
  rw [dif_pos hlt]
  simp only [hxb]

end Cert.Hist

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.LibDotT.lean ====
/-
  A matrix product that contracts the FIRST axis of both operands, at the ideal instance, read at an entry.

  For operands of shapes [K, M] and [K, N] whose dimension numbers contract the first axis of each, the product into
  a zero accumulator is, at `(p, j)`, the plain sum over `a : Fin K` of `l (a, p) * r (a, j)` on the extended reals:
  the left operand is read down its column `p`, the right down its column `j`. The dimension numbers enter only through
  four coordinate facts, which a caller proves for its own record.
-/
import Idealize.ShloMosaic.Lib.ValueIdx
import Idealize.ShloMosaic.PureOps.Ideal.Laws

noncomputable section

namespace Cert.Lib.DotT

open Idealize.ShloMosaic Idealize.ShloMosaic.ValueIdx

/-- The contraction sum re-indexed from the record's one-axis contraction index to `Fin K`. -/
theorem contraction_ix2T {K M N : Nat} (D : DotDims ⟨2, ![K, M]⟩ ⟨2, ![K, N]⟩ ⟨2, ![M, N]⟩)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : (⟨2, ![K, M]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 a p) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 a p := funext fun d => Fin.ext (by
    match d with
    | ⟨0, _⟩ => exact (hl0 _ _).trans hk
    | ⟨1, _⟩ => exact hl1 _ _)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- The product into the zero accumulator, at the ideal instance, read at `(p, j)`. -/
theorem matmul_zero_ix2T {K M N : Nat} {φ₁ φ₂ : FTy} (D : DotDims ⟨2, ![K, M]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (q ⟨0, by omega⟩).val)
    (hl1 : ∀ i q, (D.lhsIdx i q 1).val = (i 0).val)
    (hr0 : ∀ i q, (D.rhsIdx i q 0).val = (q ⟨0, by omega⟩).val)
    (hr1 : ∀ i q, (D.rhsIdx i q 1).val = (i 1).val)
    (l : FVec Ideal ⟨2, ![K, M]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 a p) * r (ix2 a j) := by
  show FloatOps.matmul D prec l r (constant (F := Ideal) ⟨2, ![M, N]⟩ .f32 0x00000000#32) (ix2 p j) = _
  rw [Ideal.matmul_constant_zero_apply]
  exact contraction_ix2T D hr hs hl0 hl1 hr0 hr1 l r p j

end Cert.Lib.DotT

end
-- ==== Proof.LibKeepdims.lean ====
/-
  Row-wise and column-wise sums kept as a unit axis, read at an entry.

  A sum of squares taken along one axis of a matrix with the reduced axis kept as a unit axis is printed as three
  steps: a lane sum into a vector, a cast of the vector to a one-column or one-row matrix, and a broadcast of that
  matrix back to the full shape. The one-row steps are in the library; here are the one-column steps, and the two
  lane sums of a rank-2 array (along its second axis, giving one number per row, and along its first, giving one
  per column) as plain sums over `Fin`.
-/
import Idealize.ShloMosaic.Lib.ValueIdx
import Idealize.ShloMosaic.Lib.Pipeline.Value
import Idealize.ShloMosaic.PureOps.Ideal.Laws

noncomputable section

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The lane sum of an `[a, b]` array along its second axis, from the zero word, at row `r`: the sum of that row. -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  refine Finset.sum_congr rfl fun k _ => congrArg src (funext fun d => Fin.ext ?_)
  match d with
  | ⟨0, _⟩ => rfl
  | ⟨1, _⟩ => rfl

/-- The lane sum of an `[a, b]` array along its first axis, from the zero word, at column `q`: the sum of that column. -/
theorem sum_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun d => Fin.ext ?_)
  match d with
  | ⟨0, _⟩ => rfl
  | ⟨1, _⟩ => rfl

end Cert.Lib.Keepdims

end
-- ==== Proof.TileValue.lean ====
/-
  What one grid point adds to the accumulator, read at an entry.

  At a grid point the body holds a block `xb` of 4096 rows of `x` and the transposed centre table `ct`
  (`ct (j, o)` is coordinate `j` of centre `o`). It forms, for every row `a` of the block and every centre `o`,
  the row's squared norm (a lane sum kept as a column), the centre's squared norm (a lane sum kept as a row), their
  inner product (a matrix product), the distance `‖xb a‖² - 2·⟨xb a, c o⟩ + ‖c o‖²`, and the exponential of
  `(0 - distance) · 1/2`: the weight of row `a` at centre `o`. A second matrix product contracts the 4096 rows:
  entry `(o, i)` of it is the sum over the block's rows of `weight a o * xb a i`, and the body stores the
  accumulator plus that. The changes of float format in between are the identity on the extended reals.
-/
import proofs.«124418_j40175124087486_1_alg».proof.Proof.Gen.KernelIdeal.Skeleton
import proofs.«124418_j40175124087486_1_alg».proof.Proof.Histogram
import proofs.«124418_j40175124087486_1_alg».proof.Proof.LibDot2
import proofs.«124418_j40175124087486_1_alg».proof.Proof.LibDotT
import proofs.«124418_j40175124087486_1_alg».proof.Proof.LibKeepdims
import Idealize.ShloMosaic.Lib.ValueLayout
import Idealize.ShloMosaic.Lib.Pipeline.Value

noncomputable section

namespace Cert.Hist.Tile

open Idealize.ShloMosaic Idealize.ShloMosaic.ValueIdx
open Cert.KernelIdeal Cert.KernelIdeal.Gen

/-! ## The coordinates the two products read -/

/-- The inner products' record: the left operand keeps the output's row, -/
theorem inner_lhs_0 (i : S4096x128.Idx) (q : dot_S4096x64_S64x128_S4096x128_1_0_0_1_n_n.contr.Idx) :
    (dot_S4096x64_S64x128_S4096x128_1_0_0_1_n_n.lhsIdx i q 0).val = (i 0).val := by
  unfold DotDims.lhsIdx
  rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
  rfl
/-- and is contracted along its second axis; -/
theorem inner_lhs_1 (i : S4096x128.Idx) (q : dot_S4096x64_S64x128_S4096x128_1_0_0_1_n_n.contr.Idx) :
    (dot_S4096x64_S64x128_S4096x128_1_0_0_1_n_n.lhsIdx i q 1).val = (q ⟨0, by decide⟩).val :=
  dot_S4096x64_S64x128_S4096x128_1_0_0_1_n_n.lhsIdx_val_of_single rfl i q
/-- the right operand is contracted along its first axis, -/
theorem inner_rhs_0 (i : S4096x128.Idx) (q : dot_S4096x64_S64x128_S4096x128_1_0_0_1_n_n.contr.Idx) :
    (dot_S4096x64_S64x128_S4096x128_1_0_0_1_n_n.rhsIdx i q 0).val = (q ⟨0, by decide⟩).val :=
  dot_S4096x64_S64x128_S4096x128_1_0_0_1_n_n.rhsIdx_val_of_single rfl i q
/-- and keeps the output's column. -/
theorem inner_rhs_1 (i : S4096x128.Idx) (q : dot_S4096x64_S64x128_S4096x128_1_0_0_1_n_n.contr.Idx) :
    (dot_S4096x64_S64x128_S4096x128_1_0_0_1_n_n.rhsIdx i q 1).val = (i 1).val := by
  unfold DotDims.rhsIdx
  rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
  rfl

/-- The contraction over the block's rows: the left operand is contracted along its first axis, -/
theorem rows_lhs_0 (i : S128x64.Idx) (q : dot_S4096x128_S4096x64_S128x64_0_0_1_1_n_n.contr.Idx) :
    (dot_S4096x128_S4096x64_S128x64_0_0_1_1_n_n.lhsIdx i q 0).val = (q ⟨0, by decide⟩).val :=
  dot_S4096x128_S4096x64_S128x64_0_0_1_1_n_n.lhsIdx_val_of_single rfl i q
/-- and its second axis is the output's row; -/
theorem rows_lhs_1 (i : S128x64.Idx) (q : dot_S4096x128_S4096x64_S128x64_0_0_1_1_n_n.contr.Idx) :
    (dot_S4096x128_S4096x64_S128x64_0_0_1_1_n_n.lhsIdx i q 1).val = (i 0).val := by
  unfold DotDims.lhsIdx
  rw [dif_neg (show ¬(1 : Fin S4096x128.rank) ∈ dot_S4096x128_S4096x64_S128x64_0_0_1_1_n_n.lhsBatch by decide), dif_pos (show (1 : Fin S4096x128.rank) ∈ dot_S4096x128_S4096x64_S128x64_0_0_1_1_n_n.lhsNonContracting by decide)]
  rfl
/-- the right operand is contracted along its first axis too, -/
theorem rows_rhs_0 (i : S128x64.Idx) (q : dot_S4096x128_S4096x64_S128x64_0_0_1_1_n_n.contr.Idx) :
    (dot_S4096x128_S4096x64_S128x64_0_0_1_1_n_n.rhsIdx i q 0).val = (q ⟨0, by decide⟩).val :=
  dot_S4096x128_S4096x64_S128x64_0_0_1_1_n_n.rhsIdx_val_of_single rfl i q
/-- and its second axis is the output's column. -/
theorem rows_rhs_1 (i : S128x64.Idx) (q : dot_S4096x128_S4096x64_S128x64_0_0_1_1_n_n.contr.Idx) :
    (dot_S4096x128_S4096x64_S128x64_0_0_1_1_n_n.rhsIdx i q 1).val = (i 1).val := by
  unfold DotDims.rhsIdx
  rw [dif_neg (show ¬(1 : Fin S4096x64.rank) ∈ dot_S4096x128_S4096x64_S128x64_0_0_1_1_n_n.rhsBatch by decide), dif_pos (show (1 : Fin S4096x64.rank) ∈ dot_S4096x128_S4096x64_S128x64_0_0_1_1_n_n.rhsNonContracting by decide)]
  rfl

/-! ## The stored value at an entry -/

/-- What the body stores into the accumulator, at `(o, i)`: what the accumulator held there plus the sum over the
    block's 4096 rows of the row's weight at centre `o` times the row's coordinate `i`. -/
theorem stored_apply (xb : FVec Ideal S4096x64 .f32) (ct : FVec Ideal S64x128 .f32) (acc : FVec Ideal S128x64 .f32)
    (o : Fin 128) (i : Fin 64) :
    k0_pay2 (F := Ideal) xb ct acc (ix2 o i)
      = acc (ix2 o i)
        + ∑ a : Fin 4096, Cert.Hist.weight (fun j => xb (ix2 a j)) (fun j => ct (ix2 j o)) * xb (ix2 a i) := by
  unfold k0_pay2
  dsimp only
  rw [shapeCast_self]
  refine (addf_apply _ _ _).trans (congrArg (acc (ix2 o i) + ·) ?_)
  refine (Cert.Lib.DotT.matmul_zero_ix2T dot_S4096x128_S4096x64_S128x64_0_0_1_1_n_n none rfl rfl rows_lhs_0 rows_lhs_1 rows_rhs_0 rows_rhs_1 _ _ o i).trans ?_
  refine Finset.sum_congr rfl fun a _ => ?_
  refine congrArg₂ (· * ·) ?_ (truncf_apply _ _ _)
  simp only [exp, mulf_apply, subf_apply, addf_apply, broadcast_apply, truncf_apply, shapeCast_self,
    Cert.Lib.Keepdims.broadcastTo_a1_ab_apply, Cert.Lib.Keepdims.shapeCast_a_a1_apply,
    broadcastTo_1b_ab_apply, shapeCast_a_1a_apply,
    Cert.Lib.Dot2.matmul_zero_ix2 dot_S4096x64_S64x128_S4096x128_1_0_0_1_n_n none rfl rfl inner_lhs_0 inner_lhs_1 inner_rhs_0 inner_rhs_1,
    Ideal.exp_def, Ideal.ofBits_def, Ideal.ofBits_zero_f32]
  rw [Cert.Hist.exp_zero_sub_mul_half]
  unfold Cert.Hist.weight Cert.Hist.sqDist
  refine congrArg (fun d => Ideal.exp (Ideal.div (-d) (Ideal.ofBits .f32 0x40000000#32))) ?_
  refine congrArg₂ (· + ·) (congrArg₂ (· - ·) ?_ rfl) ?_
  · exact Cert.Lib.Keepdims.sum_axis1_apply (mulf xb xb) _ _ _ a
  · exact Cert.Lib.Keepdims.sum_axis0_apply (mulf ct ct) _ _ _ o

end Cert.Hist.Tile

end
-- ==== Proof.Blocks.lean ====
/-
  What the body finds in its two input blocks, at the ideal instance.

  The first window walks down `x` in blocks of 4096 rows: at grid point `t` its block holds rows `4096 t … 4096 t + 4095`,
  so entry `(a, j)` of the block is `x (4096 t + a, j)`. The second window stages, at every point, the whole table
  that @main computes before the region: the transpose of the centres, whose entry `(j, o)` is `c (o, j)`.
-/
import proofs.«124418_j40175124087486_1_alg».proof.Proof.Gen.KernelIdeal.Frame
import Idealize.ShloMosaic.Lib.ValueLayout
import Idealize.ShloMosaic.Lib.Pipeline.Value
import Idealize.ShloMosaic.Lib.StableHlo.Run
import Idealize.ShloMosaic.Lib.Tactic

noncomputable section

namespace Cert.Hist.Blocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The rows, as launched. -/
abbrev xarr (c : Dev nD) : FVec Ideal S524288x64 .f32 := m ((c : Thread nD τ).loc main_arg0)
/-- The centres, as launched. -/
abbrev carr (c : Dev nD) : FVec Ideal S128x64 .f32 := m ((c : Thread nD τ).loc main_arg1)
/-- The block of rows the body finds at point `t`. -/
abbrev xblk (c : Dev nD) (t : Fin cfg0.N) : FVec Ideal S4096x64 .f32 := iblk m c 0 t
/-- The transposed centre table the body finds at point `t`. -/
abbrev ctblk (c : Dev nD) (t : Fin cfg0.N) : FVec Ideal S64x128 .f32 := iblk m c 1 t

/-- The first window's block index at point `t` is `(t, 0)`: decided over the grid. -/
theorem rows_index : ∀ t : Fin cfg0.N, win0_0.index t 0 = t.val ∧ win0_0.index t 1 = 0 :=
  (by decide +kernel : ∀ t : Fin grid0.N, win0_0.index t 0 = t.val ∧ win0_0.index t 1 = 0)

/-- The second window's block index is `(0, 0)` at every point. -/
theorem table_index : ∀ t : Fin cfg0.N, win0_1.index t 0 = 0 ∧ win0_1.index t 1 = 0 :=
  (by decide +kernel : ∀ t : Fin grid0.N, win0_1.index t 0 = 0 ∧ win0_1.index t 1 = 0)

theorem point_lt (t : Fin cfg0.N) : t.val < 128 := lt_of_lt_of_eq t.isLt (show cfg0.N = 128 from N_0)

/-- Entry `(a, j)` of the block of rows at point `t` is `x (4096 t + a, j)`. -/
theorem xblk_apply (c : Dev nD) (t : Fin cfg0.N) (a : Fin 4096) (j : Fin 64) :
    xblk m c t (ix2 a j)
      = xarr m c (ix2 (⟨t.val * 4096 + a.val, by have := a.isLt; have := point_lt t; omega⟩ : Fin 524288) j) := by
  show iblk m c 0 t (ix2 a j) = _
  unfold iblk
  rw [View.read_apply]
  show V m c main_arg0 _ = m ((c : Thread nD τ).loc main_arg0) _
  rw [V_main_arg0]
  congr 1
  funext d
  apply Fin.ext
  match d with
  | ⟨0, _⟩ => show win0_0.index t 0 * 4096 + 1 * a.val = t.val * 4096 + a.val; rw [(rows_index t).1]; omega
  | ⟨1, _⟩ => show win0_0.index t 1 * 64 + 1 * j.val = j.val; rw [(rows_index t).2]; omega

/-- The table the region finds is the transpose of the centres. -/
theorem table_eq (c : Dev nD) :
    (V m c main_v0 : S64x128.Idx → EReal) = transpose S64x128 [1, 0] (carr m c) transposes_S128x64_S64x128_1_0 := by
  dsimp only [V, hostOps0]
  after_results

/-- Entry `(j, o)` of the table block, at any point, is `c (o, j)`. -/
theorem ctblk_apply (c : Dev nD) (t : Fin cfg0.N) (j : Fin 64) (o : Fin 128) :
    ctblk m c t (ix2 j o) = carr m c (ix2 o j) := by
  show iblk m c 1 t (ix2 j o) = _
  unfold iblk
  rw [View.read_apply]
  show V m c main_v0 _ = _
  refine (congrFun (table_eq m c) _).trans ?_
  refine Eq.trans (congrArg _ ?_) (transpose_ix2_apply (carr m c) transposes_S128x64_S64x128_1_0 j o)
  funext d
  apply Fin.ext
  match d with
  | ⟨0, _⟩ => show win0_1.index t 0 * 64 + 1 * j.val = j.val; rw [(table_index t).1]; omega
  | ⟨1, _⟩ => show win0_1.index t 1 * 128 + 1 * o.val = o.val; rw [(table_index t).2]; omega

end Cert.Hist.Blocks

end
-- ==== Proof.Pieces.lean ====
/-
  What each case of the body leaves behind, as a value.

  The accumulator is a scratch buffer that outlives a grid point. At the first point the body stores zeros into it,
  reads them back and stores the update over them; at every later point it reads what the point before left and
  stores the update. In all three cases what the scratch ends holding is ONE function of the two input blocks
  and of what the update was added to: the stored value `k0_pay2`, over the zero block at the first point and over
  the previous contents afterwards. At the last point the body also copies the scratch, just updated, into the
  output's buffer, which therefore holds the same value.
-/
import proofs.«124418_j40175124087486_1_alg».proof.Proof.Gen.KernelIdeal.Frame
import Idealize.ShloMosaic.Lib.Pipeline.Value
import Idealize.ShloMosaic.Lib.Tactic

noncomputable section

namespace Cert.Hist.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- A middle point: the scratch ends at the update of what it held. -/
theorem scratch_B (c : Dev nD) (i : grid0.Coords) (arg1 : Memref sig .tc .vmem S4096x64 .f32) (harg1 : arg1.IsWhole)
    (arg2 : Memref sig .tc .vmem S64x128 .f32) (harg2 : arg2.IsWhole) (arg3 : Memref sig .tc .vmem S128x64 .f32)
    (harg3 : arg3.IsWhole) (arg4 : Memref sig .tc .vmem S128x64 .f32) (harg4 : arg4.IsWhole)
    (hc0 : ¬cond0_0 i) (hc1 : ¬cond0_1 i) (x0 : Vec F S4096x64 .f32) (x1 : Vec F S64x128 .f32) (xs0 : Vec F S128x64 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz]
  simp only [View.readAt_eq_ld, harg1.read_unread, harg2.read_unread, harg4.read_unread,
    View.ld_unit_zero (S := S4096x64) hz, View.ld_unit_zero (S := S64x128) hz, View.ld_unit_zero (S := S128x64) hz]

/-- The first point: the scratch ends at the update of the zero block it has just been reset to. -/
theorem scratch_A (c : Dev nD) (i : grid0.Coords) (arg1 : Memref sig .tc .vmem S4096x64 .f32) (harg1 : arg1.IsWhole)
    (arg2 : Memref sig .tc .vmem S64x128 .f32) (harg2 : arg2.IsWhole) (arg3 : Memref sig .tc .vmem S128x64 .f32)
    (harg3 : arg3.IsWhole) (arg4 : Memref sig .tc .vmem S128x64 .f32) (harg4 : arg4.IsWhole)
    (hc0 : cond0_0 i) (hc1 : ¬cond0_1 i) (x0 : Vec F S4096x64 .f32) (x1 : Vec F S64x128 .f32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S128x64) hz]
  simp only [View.readCov_unit_zero (S := S128x64) _ hz, View.readAt_eq_ld, harg1.read_unread, harg2.read_unread,
    View.ld_unit_zero (S := S4096x64) hz, View.ld_unit_zero (S := S64x128) hz, View.ld_unit_zero (S := S128x64) hz]

/-- The last point: the scratch ends at the update of what it held, -/
theorem scratch_C (c : Dev nD) (i : grid0.Coords) (arg1 : Memref sig .tc .vmem S4096x64 .f32) (harg1 : arg1.IsWhole)
    (arg2 : Memref sig .tc .vmem S64x128 .f32) (harg2 : arg2.IsWhole) (arg3 : Memref sig .tc .vmem S128x64 .f32)
    (harg3 : arg3.IsWhole) (arg4 : Memref sig .tc .vmem S128x64 .f32) (harg4 : arg4.IsWhole)
    (hc0 : ¬cond0_0 i) (hc1 : cond0_1 i) (x0 : Vec F S4096x64 .f32) (x1 : Vec F S64x128 .f32) (xs0 : Vec F S128x64 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz]
  simp only [View.readAt_eq_ld, harg1.read_unread, harg2.read_unread, harg4.read_unread,
    View.ld_unit_zero (S := S4096x64) hz, View.ld_unit_zero (S := S64x128) hz, View.ld_unit_zero (S := S128x64) hz]

/-- and the output's buffer, a copy of the scratch just updated, holds the same. -/
theorem out_C (c : Dev nD) (i : grid0.Coords) (arg1 : Memref sig .tc .vmem S4096x64 .f32) (harg1 : arg1.IsWhole)
    (arg2 : Memref sig .tc .vmem S64x128 .f32) (harg2 : arg2.IsWhole) (arg3 : Memref sig .tc .vmem S128x64 .f32)
    (harg3 : arg3.IsWhole) (arg4 : Memref sig .tc .vmem S128x64 .f32) (harg4 : arg4.IsWhole)
    (hc0 : ¬cond0_0 i) (hc1 : cond0_1 i) (x0 : Vec F S4096x64 .f32) (x1 : Vec F S64x128 .f32) (xs0 : Vec F S128x64 .f32) :
    out0_C_2 c i arg1 harg1 arg2 harg2 arg3 harg3 arg4 harg4 hc0 hc1 x0 x1 xs0 = k0_pay2 x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz]
  simp only [View.readCov_unit_zero (S := S128x64) _ hz, View.readAt_eq_ld, harg1.read_unread, harg2.read_unread,
    harg4.read_unread, View.ld_unit_zero (S := S4096x64) hz, View.ld_unit_zero (S := S64x128) hz,
    View.ld_unit_zero (S := S128x64) hz]

end Cert.Hist.Pieces

end
-- ==== Proof.Accumulate.lean ====
/-
  The accumulator after each grid point.

  At point `t` the body adds, to what the accumulator holds at `(o, i)`, the sum over rows `4096 t … 4096 t + 4095`
  of `weight k o * x k i`: the block's rows are those rows of `x`, and the table block's column `o` is centre `o`.
  The first point starts from the zero block, so by induction on the point the accumulator after point `n` holds
  the sum over the first `4096 (n + 1)` rows: the histogram's partial sum after `n + 1` stretches.
-/
import proofs.«124418_j40175124087486_1_alg».proof.Proof.TileValue
import proofs.«124418_j40175124087486_1_alg».proof.Proof.Blocks
import proofs.«124418_j40175124087486_1_alg».proof.Proof.Pieces

noncomputable section

namespace Cert.Hist.Acc

open Idealize.ShloMosaic Idealize.ShloMosaic.TcCoe Idealize.SL.Sem Idealize.ShloMosaic.ValueIdx
open Cert.KernelIdeal Cert.KernelIdeal.Gen Cert.Hist Cert.Hist.Blocks

variable (m : (ℓ : Loc nD τ sig) → Buf (Elt Ideal) ℓ)

/-- The block the first point resets the accumulator to is zero at every entry. -/
theorem zero_block_apply (o : Fin 128) (i : Fin 64) : (k0_pay1 (F := Ideal)) (ix2 o i) = 0 := by
  unfold k0_pay1
  rw [shapeCast_self]
  exact Ideal.ofBits_zero_f32

/-- What point `t` stores at `(o, i)` over an accumulator `acc`: `acc (o, i)` plus stretch `t`'s contributions. -/
theorem point_stores (c : Dev nD) (t : Fin cfg0.N) (acc : FVec Ideal S128x64 .f32) (o : Fin 128) (i : Fin 64) :
    k0_pay2 (F := Ideal) (xblk m c t) (ctblk m c t) acc (ix2 o i)
      = acc (ix2 o i) + ∑ a ∈ Finset.range 4096, term (xarr m c) (carr m c) o i (t.val * 4096 + a) := by
  refine (Cert.Hist.Tile.stored_apply (xblk m c t) (ctblk m c t) acc o i).trans (congrArg (acc (ix2 o i) + ·) ?_)
  have hc : (fun j : Fin 64 => ctblk m c t (ix2 j o)) = fun j => carr m c (ix2 o j) :=
    funext fun j => ctblk_apply m c t j o
  rw [hc]
  exact stretch_sum (xarr m c) (carr m c) o i t.val (point_lt t) (xblk m c t) (fun a j => xblk_apply m c t a j)

/-- After point `n` the accumulator holds, at `(o, i)`, the sum of the first `n + 1` stretches' contributions. -/
theorem scratch_after (c : Dev nD) : ∀ (n : ℕ) (hn : n < cfg0.N) (o : Fin 128) (i : Fin 64),
    (outsAt0 m c n hn).2 (ix2 o i) = partialSum (xarr m c) (carr m c) o i (n + 1)
  | 0, hn, o, i => by
    rw [outsAt0_A m c ⟨0, hn⟩ rfl (by show ¬(0 : ℕ) % 128 = 127; decide)]
    dsimp only
    rw [Cert.Hist.Pieces.scratch_A]
    refine (point_stores m c ⟨0, hn⟩ (k0_pay1 (F := Ideal)) o i).trans ?_
    rw [zero_block_apply, partialSum_succ, partialSum_zero]
  | n + 1, hn, o, i => by
    have hN : n + 1 < 128 := lt_of_lt_of_eq hn (show cfg0.N = 128 from N_0)
    have h0 : ¬(⟨n + 1, hn⟩ : Fin cfg0.N).val % 128 = 0 := by dsimp only; omega
    have ih := scratch_after c n (Nat.lt_of_succ_lt hn) o i
    by_cases h1 : (⟨n + 1, hn⟩ : Fin cfg0.N).val % 128 = 127
    · rw [outsAt0_C m c ⟨n + 1, hn⟩ h0 h1]
      dsimp only
      rw [Cert.Hist.Pieces.scratch_C]
      refine (point_stores m c ⟨n + 1, hn⟩ _ o i).trans ?_
      exact (congrArg (· + ∑ a ∈ Finset.range 4096, term (xarr m c) (carr m c) o i ((n + 1) * 4096 + a)) ih).trans
        (partialSum_succ (xarr m c) (carr m c) o i (n + 1)).symm
    · rw [outsAt0_B m c ⟨n + 1, hn⟩ h0 h1]
      dsimp only
      rw [Cert.Hist.Pieces.scratch_B]
      refine (point_stores m c ⟨n + 1, hn⟩ _ o i).trans ?_
      exact (congrArg (· + ∑ a ∈ Finset.range 4096, term (xarr m c) (carr m c) o i ((n + 1) * 4096 + a)) ih).trans
        (partialSum_succ (xarr m c) (carr m c) o i (n + 1)).symm

end Cert.Hist.Acc

end
-- ==== Proof.KernelValue.lean ====
/-
  The kernel's result array is the histogram.

  The output's block is written back once, after the last grid point, and that block is the whole `[128, 64]` array.
  At the last point the output's buffer holds a copy of the accumulator just updated, which is the sum of all 128
  stretches' contributions: every row of `x`. So the result array ends holding the histogram, and the two argument
  arrays are as launched.
-/
import proofs.«124418_j40175124087486_1_alg».proof.Proof.Accumulate
import proofs.«124418_j40175124087486_1_alg».proof.Proof.Gen.KernelIdeal.Value

noncomputable section

namespace Cert.Hist.Kernel

open Idealize.ShloMosaic Idealize.ShloMosaic.TcCoe Idealize.SL.Sem Idealize.ShloMosaic.ValueIdx
open Idealize.ShloMosaic.Pipeline (Dat)
open Cert.KernelIdeal Cert.KernelIdeal.Gen Cert.Hist Cert.Hist.Blocks

variable (m : (ℓ : Loc nD τ sig) → Buf (Elt Ideal) ℓ) (ρ : Dev nD → PrngReg)

/-- The histogram of the launched arrays, as contents of the result array. -/
abbrev result (c : Dev nD) : Buf (Elt Ideal) ((c : Thread nD τ).loc main_v1) := hist (xarr m c) (carr m c)

/-- The output window's block index is `(0, 0)` at every point: decided over the grid. -/
theorem out_index : ∀ t : Fin cfg0.N, win0_2.index t 0 = 0 ∧ win0_2.index t 1 = 0 :=
  (by decide +kernel : ∀ t : Fin grid0.N, win0_2.index t 0 = 0 ∧ win0_2.index t 1 = 0)

/-- After the last point (the one whose number is 127 modulo 128) the output's buffer holds the histogram: the copy of
    the accumulator, which has by then taken in all 128 stretches. -/
theorem out_at_last (c : Dev nD) (t : Fin cfg0.N) (h : t.val % 128 = 127) :
    (outsAt0 m c t.val t.isLt).1 = result m c := by
  have hN := point_lt t
  have h0 : ¬t.val % 128 = 0 := by omega
  have ht : t.val = 127 := by omega
  have hpred : t.val - 1 + 1 = 127 := by omega
  funext y
  obtain ⟨o, i, rfl⟩ : ∃ (o : Fin 128) (i : Fin 64), y = ix2 o i := ⟨y 0, y 1, eq_ix2 y⟩
  rw [outsAt0_C m c t h0 h]
  dsimp only
  rw [Cert.Hist.Pieces.out_C]
  refine (Cert.Hist.Acc.point_stores m c t _ o i).trans ?_
  have ih := Cert.Hist.Acc.scratch_after m c (t.val - 1) (Nat.lt_of_le_of_lt (Nat.sub_le _ _) t.isLt) o i
  rw [hpred] at ih
  rw [ih, ht]
  exact (partialSum_succ (xarr m c) (carr m c) o i 127).symm.trans (partialSum_all (xarr m c) (carr m c) o i)

/-- The one write-back, after the last point, writes the histogram: its block is the whole array. -/
theorem flushed_eq (c : Dev nD) (t : Fin cfg0.N) (hf : (cfg0.win 2).flush t = true) :
    (dats m 0 c).flushed 2 t = ((cfg0.win 2).blk t).view.read (Elt Ideal) (result m c) := by
  have h127 : t.val % 128 = 127 := (flush0_2 t).mp hf
  show (cfg0.win 2).cut (grid0.coords t) ((dats m 0 c).after 2 t) = _
  rw [after0_2, out_at_last m c t h127]
  generalize result m c = G
  funext j
  show G j = G (((cfg0.win 2).blk t).view.emb j)
  refine congrArg G (funext fun a => Fin.ext ?_)
  match a with
  | ⟨0, _⟩ => show (j 0).val = win0_2.index t 0 * 128 + 1 * (j 0).val; rw [(out_index t).1]; omega
  | ⟨1, _⟩ => show (j 1).val = win0_2.index t 1 * 64 + 1 * (j 1).val; rw [(out_index t).2]; omega

/-- An index of the result array is in point `t`'s block iff each coordinate is in the block's range on its axis. -/
theorem mem_block (t : Fin cfg0.N) (y : S128x64.Idx) :
    y ∈ ((cfg0.win 2).blk t).view.set
      ↔ ∀ a : Fin 2, win0_2.index t a * S128x64.size a ≤ (y a).val
          ∧ (y a).val < win0_2.index t a * S128x64.size a + S128x64.size a := by
  show y ∈ ((View.whole main_v1).slice (win0_2.rect t)).set ↔ _
  rw [View.set_slice_whole, Rect.mem_set_unit]
  exact Iff.rfl

/-- Every index of the result array lies in the block written back after the last point. -/
theorem covered (c : Dev nD) (y : ((cfg0.win 2).arr.view.loc (c.tc : Thread nD τ)).2.ty.Idx) :
    ∃ t : Fin cfg0.N, (cfg0.win 2).flush t = true ∧ y ∈ ((cfg0.win 2).blk t).view.set := by
  have hlast : (127 : ℕ) < cfg0.N := by rw [show cfg0.N = 128 from N_0]; decide
  refine ⟨⟨127, hlast⟩, (flush0_2 ⟨127, hlast⟩).mpr rfl, ?_⟩
  rw [mem_block]
  intro a
  have h0 : (y 0).val < 128 := (y 0).isLt
  have h1 : (y 1).val < 64 := (y 1).isLt
  match a with
  | ⟨0, _⟩ =>
    show win0_2.index ⟨127, hlast⟩ 0 * 128 ≤ (y 0).val ∧ (y 0).val < win0_2.index ⟨127, hlast⟩ 0 * 128 + 128
    rw [(out_index ⟨127, hlast⟩).1]; omega
  | ⟨1, _⟩ =>
    show win0_2.index ⟨127, hlast⟩ 1 * 64 ≤ (y 1).val ∧ (y 1).val < win0_2.index ⟨127, hlast⟩ 1 * 64 + 64
    rw [(out_index ⟨127, hlast⟩).2]; omega

/-- So the result array ends holding the histogram. -/
theorem final (c : Dev nD) : (dats m 0 c).arrAt 2 cfg0.N = result m c :=
  (dats m 0 c).arrAt_eq_of_cover 2 (result m c) (flushed_eq m c) (covered c)

/-- The run, read: the result array at the histogram of the launched arrays, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩)
    (Cert.KernelIdeal.Value.run_blocks m ρ)

end Cert.Hist.Kernel

end
-- ==== Proof.ReferenceValue.lean ====
/-
  The reference program's result is the histogram.

  Read index by index, the reference's last stage at `(o, i)` is the sum over all rows `k` of the exponential stage
  at `(k, o)` times `x k i`; the exponential stage at `(k, o)` is the exponential of the negated distance stage divided
  by two; and the distance stage is `(0 + ∑ x k j ²) - 2 · ∑ x k j · c o j + (0 + ∑ c o j ²)`, each host sum starting
  from the zero word. With the zero removed this is the weight of row `k` at centre `o`, term by term.
-/
import proofs.«124418_j40175124087486_1_alg».proof.Proof.Gen.ReferenceIdeal.Read
import proofs.«124418_j40175124087486_1_alg».proof.Proof.Histogram

noncomputable section

namespace Cert.Hist.Ref

open Idealize.ShloMosaic Idealize.ShloMosaic.ValueIdx
open Cert.ReferenceIdeal Cert.ReferenceIdeal.Read

/-- The exponential stage at `(k, o)` is the weight of row `k` at centre `o`. -/
theorem weight_stage (x0 : (⟨S524288x64, .f32⟩ : BufTy).Contents (Elt Ideal))
    (x1 : (⟨S128x64, .f32⟩ : BufTy).Contents (Elt Ideal)) (k : Fin 524288) (o : Fin 128) :
    val_main_v16 (F := Ideal) x0 x1 (ix2 k o)
      = Cert.Hist.weight (fun j => x0 (ix2 k j)) (fun j => x1 (ix2 o j)) := by
  have hA : ∀ j : Fin 64, idx_main_v1 (idx_main_v2 (idx_main_v9 (ix2 k o))) j = ix2 k j := fun j =>
    funext fun a => Fin.ext (by match a with | ⟨0, _⟩ => rfl | ⟨1, _⟩ => rfl)
  have hL : ∀ j : Fin 64, lidx_main_v6 (ix2 k o) j = ix2 k j := fun j =>
    funext fun a => Fin.ext (by match a with | ⟨0, _⟩ => rfl | ⟨1, _⟩ => rfl)
  have hR : ∀ j : Fin 64, ridx_main_v6 (ix2 k o) j = ix2 o j := fun j =>
    funext fun a => Fin.ext (by match a with | ⟨0, _⟩ => rfl | ⟨1, _⟩ => rfl)
  have hC : ∀ j : Fin 64, idx_main_v4 (idx_main_v5 (idx_main_v11 (ix2 k o))) j = ix2 o j := fun j =>
    funext fun a => Fin.ext (by match a with | ⟨0, _⟩ => rfl | ⟨1, _⟩ => rfl)
  rw [val_main_v16_apply, val_main_v15_apply, val_main_v14_apply, val_main_cst_2_apply, val_main_v13_apply,
    val_main_v12_apply, val_main_v10_apply, val_main_v11_apply, val_main_v5_apply, val_main_v4_apply,
    val_main_v9_apply, val_main_v2_apply, val_main_v1_apply, val_main_v8_apply, val_main_v7_apply,
    val_main_cst_1_apply, val_main_v6_apply, val_main_cst_apply, val_main_cst_0_apply]
  simp only [val_main_v0_apply, val_main_v3_apply, hA, hL, hR, hC, Ideal.hostUnary_exp_def, Ideal.hostDivf_def,
    Ideal.hostNegf_def, Ideal.negf_def, Ideal.addf_def, Ideal.subf_def, Ideal.mulf_def, Ideal.ofBits_def,
    Ideal.ofBits_zero_f32, zero_add]
  rfl

/-- The reference's last stage is the histogram of its two arguments. -/
theorem result_eq_hist (x0 : (⟨S524288x64, .f32⟩ : BufTy).Contents (Elt Ideal))
    (x1 : (⟨S128x64, .f32⟩ : BufTy).Contents (Elt Ideal)) :
    val_main_v17 (F := Ideal) x0 x1 = Cert.Hist.hist x0 x1 := by
  funext y
  obtain ⟨o, i, rfl⟩ : ∃ (o : Fin 128) (i : Fin 64), y = ix2 o i := ⟨y 0, y 1, eq_ix2 y⟩
  rw [Cert.Hist.hist_apply, val_main_v17_apply]
  refine Finset.sum_congr rfl fun k _ => ?_
  have el : lidx_main_v17 (ix2 o i) k = ix2 k o :=
    funext fun a => Fin.ext (by match a with | ⟨0, _⟩ => rfl | ⟨1, _⟩ => rfl)
  have er : ridx_main_v17 (ix2 o i) k = ix2 k i :=
    funext fun a => Fin.ext (by match a with | ⟨0, _⟩ => rfl | ⟨1, _⟩ => rfl)
  rw [el, er, weight_stage]

end Cert.Hist.Ref

end
-- ==== Proof.lean ====
/-
  A Gaussian-weighted histogram: for rows `x k` (524288 of them, in dimension 64) and centres `c o` (128 of them),
  entry `(o, i)` of the result is the sum over all rows `k` of `exp (-(‖x k‖² - 2·⟨x k, c o⟩ + ‖c o‖²) / 2) * x k i`.

  The reference computes it with two whole contractions. The kernel walks down `x` in 128 blocks of 4096 rows; at each
  block it forms the same weights from the block and the transposed centre table, contracts the block's rows, and adds
  the result to an accumulator that is reset at the first block and copied out after the last. On the extended reals
  the two agree entry by entry:
    * the distance and the weight are spelt with the same operations in the same order, but for the exponent:
      `(0 - d) * (1/2)` in the kernel, `(-d) / 2` in the reference, equal for every extended real `d` because a quotient
      by a nonzero real is the product with its reciprocal;
    * the kernel's lane sums start from nothing and the reference's from the zero word, which adds nothing;
    * the changes of float format around the kernel's two products are the identity;
    * the sum over all rows is the sum, over the blocks in order, of the blocks' sums: addition of extended reals is
      commutative and associative, so no finiteness of the inputs is used.
  The precondition is therefore never opened. The idealization rewrote nothing, so it preserves the kernel trivially.
  The kernel's frames are the generated ones; the reference's frame is its generated run with the result dropped.
-/
import proofs.«124418_j40175124087486_1_alg».proof.Defs
import proofs.«124418_j40175124087486_1_alg».proof.Proof.Gen.Kernel
import proofs.«124418_j40175124087486_1_alg».proof.Proof.Gen.Kernel.Skeleton
import proofs.«124418_j40175124087486_1_alg».proof.Proof.Gen.Kernel.Launch
import proofs.«124418_j40175124087486_1_alg».proof.Proof.Gen.Kernel.Points
import proofs.«124418_j40175124087486_1_alg».proof.Proof.Gen.Kernel.Frame
import proofs.«124418_j40175124087486_1_alg».proof.Proof.Gen.KernelIdeal
import proofs.«124418_j40175124087486_1_alg».proof.Proof.Gen.KernelIdeal.Skeleton
import proofs.«124418_j40175124087486_1_alg».proof.Proof.Gen.KernelIdeal.Launch
import proofs.«124418_j40175124087486_1_alg».proof.Proof.Gen.KernelIdeal.Points
import proofs.«124418_j40175124087486_1_alg».proof.Proof.Gen.KernelIdeal.Frame
import proofs.«124418_j40175124087486_1_alg».proof.Proof.Gen.ReferenceIdeal
import proofs.«124418_j40175124087486_1_alg».proof.Proof.Gen.Pre_finite_inputs
import proofs.«124418_j40175124087486_1_alg».proof.Proof.Gen.KernelIdeal.Value
import proofs.«124418_j40175124087486_1_alg».proof.Proof.Gen.ReferenceIdeal.Run
import proofs.«124418_j40175124087486_1_alg».proof.Proof.Gen.ReferenceIdeal.Read
import proofs.«124418_j40175124087486_1_alg».proof.Proof.KernelValue
import proofs.«124418_j40175124087486_1_alg».proof.Proof.ReferenceValue
import Idealize.ShloMosaic.Adequacy
import Idealize.ShloMosaic.Init

noncomputable section

namespace Cert.Proof

open Idealize.ShloMosaic Idealize.SL.Sem

namespace HistClaims

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the histogram of the arrays they were launched with, and those agree. -/
theorem algebraic : Cert.algebraic_KernelIdeal_ReferenceIdeal := by
  intro m ρ m' ρ' _ hagree
  refine ⟨fun c => Cert.Hist.Kernel.result m c, Cert.Hist.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.Hist.Ref.result_eq_hist, (hagree c).1, (hagree c).2]

end HistClaims

theorem claim : Cert.Claim := ⟨Cert.Kernel.Gen.facts, Cert.KernelIdeal.Gen.facts, Cert.ReferenceIdeal.Gen.facts, Cert.Pre_finite_inputs.Gen.facts,
  HistClaims.frame_k, HistClaims.frame_ki, HistClaims.frame_ri, HistClaims.preserves, HistClaims.algebraic⟩

end Cert.Proof

end
